-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S128x64 .f32) (main_arg13 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S128x128 .f32) (main_arg11 : FVec F S128 .f32) (main_arg12 : FVec F S128x64 .f32) (main_arg13 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x64 .f32) (main_arg7 : FVec F S64 .f32) (main_arg8 : FVec F S128x128 .f32) (main_arg9 : FVec F S128 .f32) (main_arg10 : FVec F S128x128 .f32) (main_arg11 : FVec F S128 .f32) (main_arg12 : FVec F S128x64 .f32) (main_arg13 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x1600000 32) (main_arg2 : FVec F S64x128 .f32) (main_arg3 : FVec F S128 .f32) (main_arg4 : FVec F S128x128 .f32) (main_arg5 : FVec F S128 .f32) (main_arg6 : FVec F S128x64 .f32) (main_arg7 : FVec F S64 .f32) (main_arg8 : FVec F S128x128 .f32) (main_arg9 : FVec F S128 .f32) (main_arg10 : FVec F S128x128 .f32) (main_arg11 : FVec F S128 .f32) (main_arg12 : FVec F S128x64 .f32) (main_arg13 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x128 : Shape := ⟨2, ![1, 128]⟩
abbrev S1x64 : Shape := ⟨2, ![1, 64]⟩
abbrev S12800x64 : Shape := ⟨2, ![12800, 64]⟩
abbrev S12800x128 : Shape := ⟨2, ![12800, 128]⟩
abbrev S5000x64 : Shape := ⟨2, ![5000, 64]⟩
abbrev S5000x128 : Shape := ⟨2, ![5000, 128]⟩

abbrev nBuf : Space → Nat
  | .hbm => 45
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S64x128, .bf16⟩
  | .hbm, ⟨28, _⟩ => ⟨S128x128, .bf16⟩
  | .hbm, ⟨29, _⟩ => ⟨S128x64, .bf16⟩
  | .hbm, ⟨30, _⟩ => ⟨S1x128, .f32⟩
  | .hbm, ⟨31, _⟩ => ⟨S1x128, .f32⟩
  | .hbm, ⟨32, _⟩ => ⟨S1x64, .f32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S128x128, .bf16⟩
  | .hbm, ⟨39, _⟩ => ⟨S128x128, .bf16⟩
  | .hbm, ⟨40, _⟩ => ⟨S128x64, .bf16⟩
  | .hbm, ⟨41, _⟩ => ⟨S1x128, .f32⟩
  | .hbm, ⟨42, _⟩ => ⟨S1x128, .f32⟩
  | .hbm, ⟨43, _⟩ => ⟨S1x64, .f32⟩
  | .hbm, ⟨44, _⟩ => ⟨S100000x64, .f32⟩
  | .local _ .vmem, ⟨0, _⟩ => ⟨S12800x64, .f32⟩
  | .local _ .vmem, ⟨1, _⟩ => ⟨S12800x64, .f32⟩
  | .local _ .vmem, ⟨2, _⟩ => ⟨S64x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S128x64, .bf16⟩
  | .local _ .vmem, ⟨7, _⟩ => ⟨S1x64, .f32⟩
  | .local _ .vmem, ⟨8, _⟩ => ⟨S12800x64, .f32⟩
  | .local _ .vmem, ⟨9, _⟩ => ⟨S12800x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S128x128, .bf16⟩
  | .local _ .vmem, ⟨15, _⟩ => ⟨S1x128, .f32⟩
  | .local _ .vmem, ⟨16, _⟩ => ⟨S128x128, .bf16⟩
  | .local _ .vmem, ⟨17, _⟩ => ⟨S1x128, .f32⟩
  | .local _ .vmem, ⟨18, _⟩ => ⟨S128x64, .bf16⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S12800x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bitsLt_bf16_f32 : FTy.bits .bf16 < FTy.bits .f32
  shapeCasts_S128_S1x128 : S128.ShapeCasts S1x128
  shapeCasts_S64_S1x64 : S64.ShapeCasts S1x64
  inb_S12800x64_S12800x64_0_0 : ∀ a, (![0, 0] : Fin 2 → Nat) a + S12800x64.size a ≤ S12800x64.size a
  h_S12800x64 : 0 < S12800x64.numel
  shapeCasts_S12800x64_S12800x64 : S12800x64.ShapeCasts S12800x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S12800x128 : S1x128.Broadcasts S12800x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S12800x64 : S1x64.Broadcasts S12800x64
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  broadcasts_S1x128_S5000x128 : S1x128.Broadcasts S5000x128
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  dot_S12800x64_S64x128_S12800x128_1_0_0_1_n_n_wf : DotDims.WF S12800x64 S64x128 S12800x128 [1] [0] [0] [1] [] []
  dot_S12800x128_S128x128_S12800x128_1_0_0_1_n_n_wf : DotDims.WF S12800x128 S128x128 S12800x128 [1] [0] [0] [1] [] []
  dot_S12800x128_S128x64_S12800x64_1_0_0_1_n_n_wf : DotDims.WF S12800x128 S128x64 S12800x64 [1] [0] [0] [1] [] []
  scatter_S100000x64_S1600000x1_S1600000x64_1_0_0_1_wf : ScatterDims.WF S100000x64 S1600000x1 S1600000x64 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x64.size a ≤ S1600000x64.size a
  hwx0_0 : ∀ i : grid0.Coords, EltTy.bits .f32 = 32 ∨ (Rect.block (s := S1600000x64) S12800x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .bf16 = 32 ∨ (Rect.block (s := S64x128) S64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S12800x64.size a ≤ S1600000x64.size a
  hwx0_7 : ∀ i : grid0.Coords, EltTy.bits .f32 = 32 ∨ (Rect.block (s := S1600000x64) S12800x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .bf16 = 32 ∨ (Rect.block (s := S128x64) S128x64.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S12800x64_S64x128_S12800x128_1_0_0_1_n_n : DotDims S12800x64 S64x128 S12800x128 where
  lhsContracting := [1]
  rhsContracting := [0]
  lhsNonContracting := [0]
  rhsNonContracting := [1]
  lhsBatch := []
  rhsBatch := []
  wf := dot_S12800x64_S64x128_S12800x128_1_0_0_1_n_n_wf
def dot_S12800x128_S128x128_S12800x128_1_0_0_1_n_n : DotDims S12800x128 S128x128 S12800x128 where
  lhsContracting := [1]
  rhsContracting := [0]
  lhsNonContracting := [0]
  rhsNonContracting := [1]
  lhsBatch := []
  rhsBatch := []
  wf := dot_S12800x128_S128x128_S12800x128_1_0_0_1_n_n_wf
def dot_S12800x128_S128x64_S12800x64_1_0_0_1_n_n : DotDims S12800x128 S128x64 S12800x64 where
  lhsContracting := [1]
  rhsContracting := [0]
  lhsNonContracting := [0]
  rhsNonContracting := [1]
  lhsBatch := []
  rhsBatch := []
  wf := dot_S12800x128_S128x64_S12800x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v10) S12800x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S12800x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v27) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x128 : Shape := ⟨2, ![1600000, 128]⟩
abbrev S1x128 : Shape := ⟨2, ![1, 128]⟩
abbrev S1x64 : Shape := ⟨2, ![1, 64]⟩
abbrev S100000x128 : Shape := ⟨2, ![100000, 128]⟩

abbrev nBuf : Space → Nat
  | .hbm => 68
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S1600000x128, .f32⟩
  | .hbm, ⟨28, _⟩ => ⟨S1x128, .f32⟩
  | .hbm, ⟨29, _⟩ => ⟨S1600000x128, .f32⟩
  | .hbm, ⟨30, _⟩ => ⟨S1600000x128, .f32⟩
  | .hbm, ⟨31, _⟩ => ⟨S_, .f32⟩
  | .hbm, ⟨32, _⟩ => ⟨S1600000x128, .f32⟩
  | .hbm, ⟨33, _⟩ => ⟨S1600000x128, .f32⟩
  | .hbm, ⟨34, _⟩ => ⟨S1600000x128, .f32⟩
  | .hbm, ⟨35, _⟩ => ⟨S1x128, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S1600000x128, .f32⟩
  | .hbm, ⟨40, _⟩ => ⟨S1600000x128, .f32⟩
  | .hbm, ⟨41, _⟩ => ⟨S1600000x64, .f32⟩
  | .hbm, ⟨42, _⟩ => ⟨S1x64, .f32⟩
  | .hbm, ⟨43, _⟩ => ⟨S1600000x64, .f32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call0_cst : Ref sig .tc := ⟨.hbm, 31, rfl⟩
abbrev main_call0_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call1_cst : Ref sig .tc := ⟨.hbm, 38, rfl⟩
abbrev main_call1_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_call3_cst : Ref sig .tc := ⟨.hbm, 61, rfl⟩
abbrev main_call3_v0 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S1600000x64_S64x128_S1600000x128_1_0_0_1_n_n_wf : DotDims.WF S1600000x64 S64x128 S1600000x128 [1] [0] [0] [1] [] []
  dot_S1600000x128_S128x128_S1600000x128_1_0_0_1_n_n_wf : DotDims.WF S1600000x128 S128x128 S1600000x128 [1] [0] [0] [1] [] []
  dot_S1600000x128_S128x64_S1600000x64_1_0_0_1_n_n_wf : DotDims.WF S1600000x128 S128x64 S1600000x64 [1] [0] [0] [1] [] []
  scatter_S100000x64_S1600000x1_S1600000x64_1_0_0_1_wf : ScatterDims.WF S100000x64 S1600000x1 S1600000x64 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x128_S1600000x128_1_0_0_1_n_n : DotDims S1600000x64 S64x128 S1600000x128 where
  lhsContracting := [1]
  rhsContracting := [0]
  lhsNonContracting := [0]
  rhsNonContracting := [1]
  lhsBatch := []
  rhsBatch := []
  wf := dot_S1600000x64_S64x128_S1600000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.LibConcatRows.lean ====
/-
  Rows placed end to end, and the concatenation of two, three or four matrices along their column axis read at one
  element: row e, column k of the joined matrix is column k of the joined rows e of the pieces.
-/
import Idealize.ShloMosaic.PureOps.Ideal
import Idealize.ShloMosaic.Lib.ValueIdx
import Idealize.ShloMosaic.Lib.Pipeline.Value

noncomputable section

open Idealize.ShloMosaic Idealize.ShloMosaic.ValueIdx

namespace Cert.LibConcatRows

variable {α : Type}

/-- Two rows end to end. -/
def catRow2 {A B : ℕ} (a : Fin A → α) (b : Fin B → α) : Fin (A + B) → α := fun k =>
  if h : k.val < A then a ⟨k.val, h⟩ else b ⟨k.val - A, by have := k.isLt; omega⟩

/-- Three rows end to end. -/
def catRow3 {A B C : ℕ} (a : Fin A → α) (b : Fin B → α) (c : Fin C → α) : Fin (A + B + C) → α := fun k =>
  if h : k.val < A then a ⟨k.val, h⟩
  else if h2 : k.val < A + B then b ⟨k.val - A, by omega⟩
  else c ⟨k.val - (A + B), by have := k.isLt; omega⟩

/-- Four rows end to end. -/
def catRow4 {A B C D : ℕ} (a : Fin A → α) (b : Fin B → α) (c : Fin C → α) (d : Fin D → α) :
    Fin (A + B + C + D) → α := fun k =>
  if h : k.val < A then a ⟨k.val, h⟩
  else if h2 : k.val < A + B then b ⟨k.val - A, by omega⟩
  else if h3 : k.val < A + B + C then c ⟨k.val - (A + B), by omega⟩
  else d ⟨k.val - (A + B + C), by have := k.isLt; omega⟩

/-- The joined matrix read at row e and a column k lying in piece number p (which starts at column `pre`): piece p at
    row e and column k - pre, written as a column q of the piece with pre + q = k. -/
theorem concat_rows_piece {M N W : ℕ} (xs : List ((s : Shape) × (s.Idx → α)))
    (h : Shape.Concatenates (xs.map (·.1)) ⟨2, ![M, N]⟩ (1 : Fin 2))
    (p : ℕ) (hp : p < xs.length) (x : (⟨2, ![M, W]⟩ : Shape).Idx → α) (hx : xs[p] = ⟨⟨2, ![M, W]⟩, x⟩)
    (pre : ℕ)
    (hpre : (((xs.take p).map (·.1)).map fun s : Shape =>
      if h : s.rank = (⟨2, ![M, N]⟩ : Shape).rank then s.size ((1 : Fin 2).cast h.symm) else 0).sum = pre)
    (e : Fin M) (k : Fin N) (q : Fin W) (hq : pre + q.val = k.val) :
    concatenate (⟨2, ![M, N]⟩ : Shape) (1 : Fin 2) xs h (ix2 e k) = x (ix2 e q) := by
  refine concatenate_apply_piece (t := ⟨2, ![M, N]⟩) (1 : Fin 2) xs h (ix2 e k) p hp _ x hx rfl pre hpre (ix2 e q) ?_ ?_
  · intro b hb
    match b with
    | ⟨0, _⟩ => rfl
    | ⟨1, _⟩ => exact absurd rfl hb
  · exact hq

/-- Two matrices joined along the columns, at row e and column k. -/
theorem concat2_rows {M A B : ℕ} (xa : (⟨2, ![M, A]⟩ : Shape).Idx → α) (xb : (⟨2, ![M, B]⟩ : Shape).Idx → α)
    (h : Shape.Concatenates (([⟨⟨2, ![M, A]⟩, xa⟩, ⟨⟨2, ![M, B]⟩, xb⟩] : List ((s : Shape) × (s.Idx → α))).map (·.1))
      ⟨2, ![M, A + B]⟩ (1 : Fin 2))
    (e : Fin M) (k : Fin (A + B)) :
    concatenate (⟨2, ![M, A + B]⟩ : Shape) (1 : Fin 2) [⟨⟨2, ![M, A]⟩, xa⟩, ⟨⟨2, ![M, B]⟩, xb⟩] h (ix2 e k)
      = catRow2 (fun i => xa (ix2 e i)) (fun i => xb (ix2 e i)) k := by
  unfold catRow2
  split_ifs with h1
  · exact concat_rows_piece _ h 0 (by simp) xa rfl 0 (by simp) e k ⟨k.val, h1⟩ (by simp)
  · exact concat_rows_piece _ h 1 (by simp) xb rfl A (by simp) e k ⟨k.val - A, by have := k.isLt; omega⟩
      (by simp only; omega)

/-- Three matrices joined along the columns, at row e and column k. -/
theorem concat3_rows {M A B C : ℕ} (xa : (⟨2, ![M, A]⟩ : Shape).Idx → α) (xb : (⟨2, ![M, B]⟩ : Shape).Idx → α)
    (xc : (⟨2, ![M, C]⟩ : Shape).Idx → α)
    (h : Shape.Concatenates (([⟨⟨2, ![M, A]⟩, xa⟩, ⟨⟨2, ![M, B]⟩, xb⟩, ⟨⟨2, ![M, C]⟩, xc⟩] : List ((s : Shape) × (s.Idx → α))).map (·.1))
      ⟨2, ![M, A + B + C]⟩ (1 : Fin 2))
    (e : Fin M) (k : Fin (A + B + C)) :
    concatenate (⟨2, ![M, A + B + C]⟩ : Shape) (1 : Fin 2) [⟨⟨2, ![M, A]⟩, xa⟩, ⟨⟨2, ![M, B]⟩, xb⟩, ⟨⟨2, ![M, C]⟩, xc⟩] h (ix2 e k)
      = catRow3 (fun i => xa (ix2 e i)) (fun i => xb (ix2 e i)) (fun i => xc (ix2 e i)) k := by
  unfold catRow3
  split_ifs with h1 h2
  · exact concat_rows_piece _ h 0 (by simp) xa rfl 0 (by simp) e k ⟨k.val, h1⟩ (by simp)
  · exact concat_rows_piece _ h 1 (by simp) xb rfl A (by simp) e k ⟨k.val - A, by omega⟩ (by simp only; omega)
  · exact concat_rows_piece _ h 2 (by simp) xc rfl (A + B) (by simp) e k
      ⟨k.val - (A + B), by have := k.isLt; omega⟩ (by simp only; omega)

/-- Four matrices joined along the columns, at row e and column k. -/
theorem concat4_rows {M A B C D : ℕ} (xa : (⟨2, ![M, A]⟩ : Shape).Idx → α) (xb : (⟨2, ![M, B]⟩ : Shape).Idx → α)
    (xc : (⟨2, ![M, C]⟩ : Shape).Idx → α) (xd : (⟨2, ![M, D]⟩ : Shape).Idx → α)
    (h : Shape.Concatenates (([⟨⟨2, ![M, A]⟩, xa⟩, ⟨⟨2, ![M, B]⟩, xb⟩, ⟨⟨2, ![M, C]⟩, xc⟩, ⟨⟨2, ![M, D]⟩, xd⟩] : List ((s : Shape) × (s.Idx → α))).map (·.1))
      ⟨2, ![M, A + B + C + D]⟩ (1 : Fin 2))
    (e : Fin M) (k : Fin (A + B + C + D)) :
    concatenate (⟨2, ![M, A + B + C + D]⟩ : Shape) (1 : Fin 2)
        [⟨⟨2, ![M, A]⟩, xa⟩, ⟨⟨2, ![M, B]⟩, xb⟩, ⟨⟨2, ![M, C]⟩, xc⟩, ⟨⟨2, ![M, D]⟩, xd⟩] h (ix2 e k)
      = catRow4 (fun i => xa (ix2 e i)) (fun i => xb (ix2 e i)) (fun i => xc (ix2 e i)) (fun i => xd (ix2 e i)) k := by
  unfold catRow4
  split_ifs with h1 h2 h3
  · exact concat_rows_piece _ h 0 (by simp) xa rfl 0 (by simp) e k ⟨k.val, h1⟩ (by simp)
  · exact concat_rows_piece _ h 1 (by simp) xb rfl A (by simp) e k ⟨k.val - A, by omega⟩ (by simp only; omega)
  · exact concat_rows_piece _ h 2 (by simp) xc rfl (A + B) (by simp) e k ⟨k.val - (A + B), by omega⟩
      (by simp only; omega)
  · exact concat_rows_piece _ h 3 (by simp) xd rfl (A + B + C) (by simp [Nat.add_assoc]) e k
      ⟨k.val - (A + B + C), by have := k.isLt; omega⟩ (by simp only; omega)

end Cert.LibConcatRows

end
-- ==== Proof.LibMlpRows.lean ====
/-
  A three-layer perceptron applied to one row of a matrix, over the extended reals: an affine layer is the row times a
  weight matrix plus a bias row, the activation is the maximum with a threshold, and the network is
  affine, activation, affine, activation, affine. The two ways a program spells one affine layer of a whole matrix are
  read at one element: the matrix unit's product accumulated into the zero matrix with the bias kept as a one-row matrix
  and broadcast over the rows, and the host's product with the bias kept as a vector, broadcast first to one row and then
  over the rows. Both are the same sum over the contracted coordinate plus the bias entry of the column.
-/
import Idealize.ShloMosaic.PureOps.Ideal.Laws
import Idealize.ShloMosaic.Lib.ValueIdx
import Idealize.ShloMosaic.Lib.Pipeline.Value
import proofs.«163015_j33019708572043_1_alg».proof.Proof.LibPlainMatmul
import proofs.«163015_j33019708572043_1_alg».proof.Proof.LibConcatRows

noncomputable section

open Idealize.ShloMosaic Idealize.ShloMosaic.ValueIdx

namespace Cert.LibMlpRows

/-- One affine layer on a row: entry j is ∑ₖ xₖ · w(k, j) + bⱼ. -/
def layer {K N : ℕ} (x : Fin K → EReal) (w : Fin K → Fin N → EReal) (b : Fin N → EReal) : Fin N → EReal :=
  fun j => (∑ k : Fin K, x k * w k j) + b j

/-- The activation: each entry's maximum with the threshold z. -/
def act {N : ℕ} (z : EReal) (v : Fin N → EReal) : Fin N → EReal := fun j => max (v j) z

/-- Affine, activation, affine, activation, affine. -/
def mlp3 {K H₁ H₂ N : ℕ} (z : EReal) (x : Fin K → EReal)
    (w₁ : Fin K → Fin H₁ → EReal) (b₁ : Fin H₁ → EReal)
    (w₂ : Fin H₁ → Fin H₂ → EReal) (b₂ : Fin H₂ → EReal)
    (w₃ : Fin H₂ → Fin N → EReal) (b₃ : Fin N → EReal) : Fin N → EReal :=
  layer (act z (layer (act z (layer x w₁ b₁)) w₂ b₂)) w₃ b₃

/-- The matrix unit's layer: the product into a zero accumulator plus a one-row bias broadcast over the rows, at row e
    and column j. -/
theorem unit_layer_apply {M K N : ℕ} {φ₁ φ₂ : FTy} (x : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) (e : Fin M) (j : Fin N) :
    addf (matmul (DotDims.plain M K N) none x w (constant (⟨2, ![M, N]⟩ : Shape) .f32 0x00000000#32))
        (broadcastTo (⟨2, ![M, N]⟩ : Shape) b hb) (ix2 e j)
      = layer (fun k => x (ix2 e k)) (fun k n => w (ix2 k n)) (fun n => b (ix2 (0 : Fin 1) n)) j := by
  rw [addf_apply, Cert.LibPlainMatmul.matmul_plain_apply]
  unfold layer
  congr 1
  refine broadcastTo_apply b hb (ix2 e j) (ix2 (0 : Fin 1) j) fun a => ?_
  match a with
  | ⟨0, _⟩ => rfl
  | ⟨1, _⟩ =>
    show j.val = if N = 1 then 0 else j.val
    split_ifs with h1
    · have := j.isLt; omega
    · rfl

/-- The host's layer: the product plus a bias vector broadcast to one row and then over the rows, at row e and column j. -/
theorem host_layer_apply {M K N : ℕ} {φ₁ φ₂ : FTy} (x : FVec Ideal ⟨2, ![M, K]⟩ φ₁) (w : FVec Ideal ⟨2, ![K, N]⟩ φ₂)
    (b : FVec Ideal ⟨1, ![N]⟩ .f32)
    (h₁ : (⟨1, ![N]⟩ : Shape).BroadcastsInDim ⟨2, ![1, N]⟩ ![1])
    (h₂ : (⟨2, ![1, N]⟩ : Shape).BroadcastsInDim ⟨2, ![M, N]⟩ ![0, 1]) (e : Fin M) (j : Fin N) :
    addf (Host.dotGeneral (DotDims.plain M K N) none x w)
        (broadcastInDim (⟨2, ![M, N]⟩ : Shape) ![0, 1] h₂ (broadcastInDim (⟨2, ![1, N]⟩ : Shape) ![1] h₁ b)) (ix2 e j)
      = layer (fun k => x (ix2 e k)) (fun k n => w (ix2 k n)) (fun n => b (ix1 n)) j := by
  rw [addf_apply, Cert.LibPlainMatmul.dotGeneral_plain_apply]
  unfold layer
  congr 1
  refine (broadcastInDim_apply ![0, 1] h₂ _ (ix2 e j) (ix2 (0 : Fin 1) j) fun a => ?_).trans
    (broadcastInDim_apply ![1] h₁ b (ix2 (0 : Fin 1) j) (ix1 j) fun a => ?_)
  · match a with
    | ⟨0, _⟩ => rfl
    | ⟨1, _⟩ =>
      show j.val = if N = 1 then 0 else j.val
      split_ifs with h1
      · have := j.isLt; omega
      · rfl
  · match a with
    | ⟨0, _⟩ =>
      show j.val = if N = 1 then 0 else j.val
      split_ifs with h1
      · have := j.isLt; omega
      · rfl

/-- The activation of a matrix against a splat threshold, at one element. -/
theorem act_apply {s : Shape} {φ : FTy} (v : FVec Ideal s φ) (z : Ideal φ) (i : s.Idx) :
    maximumf v (broadcast s z) i = max (v i) z := rfl

/-- The network applied to every row of a matrix. -/
def mlpRows {M K H₁ H₂ N : ℕ} (z : EReal) (x : (⟨2, ![M, K]⟩ : Shape).Idx → EReal)
    (w₁ : Fin K → Fin H₁ → EReal) (b₁ : Fin H₁ → EReal)
    (w₂ : Fin H₁ → Fin H₂ → EReal) (b₂ : Fin H₂ → EReal)
    (w₃ : Fin H₂ → Fin N → EReal) (b₃ : Fin N → EReal) : (⟨2, ![M, N]⟩ : Shape).Idx → EReal :=
  fun i => mlp3 z (fun k => x (ix2 (n0 := M) (i 0) k)) w₁ b₁ w₂ b₂ w₃ b₃ (i 1)

theorem mlpRows_ix2 {M K H₁ H₂ N : ℕ} (z : EReal) (x : (⟨2, ![M, K]⟩ : Shape).Idx → EReal)
    (w₁ : Fin K → Fin H₁ → EReal) (b₁ : Fin H₁ → EReal)
    (w₂ : Fin H₁ → Fin H₂ → EReal) (b₂ : Fin H₂ → EReal)
    (w₃ : Fin H₂ → Fin N → EReal) (b₃ : Fin N → EReal) (e : Fin M) (j : Fin N) :
    mlpRows z x w₁ b₁ w₂ b₂ w₃ b₃ (ix2 e j) = mlp3 z (fun k => x (ix2 e k)) w₁ b₁ w₂ b₂ w₃ b₃ j := rfl

/-- Two matrices of 64 columns each side by side: row e of the result is row e of the first followed by row e of the
    second. -/
def joinRows64 {M : ℕ} (a b : (⟨2, ![M, 64]⟩ : Shape).Idx → EReal) : (⟨2, ![M, 128]⟩ : Shape).Idx → EReal :=
  fun i => if h : (i 1).val < 64 then a (ix2 (n0 := M) (i 0) ⟨(i 1).val, h⟩)
    else b (ix2 (n0 := M) (i 0) ⟨(i 1).val - 64, by have := idx2_lt1 i; omega⟩)

/-- The join of two 64-column matrices along the columns is `joinRows64`. -/
theorem concatenate_eq_joinRows64 {M : ℕ} (a b : (⟨2, ![M, 64]⟩ : Shape).Idx → EReal)
    (h : Shape.Concatenates (([⟨⟨2, ![M, 64]⟩, a⟩, ⟨⟨2, ![M, 64]⟩, b⟩] : List ((s : Shape) × (s.Idx → EReal))).map (·.1))
      ⟨2, ![M, 128]⟩ (1 : Fin 2)) :
    concatenate (⟨2, ![M, 128]⟩ : Shape) (1 : Fin 2) [⟨⟨2, ![M, 64]⟩, a⟩, ⟨⟨2, ![M, 64]⟩, b⟩] h = joinRows64 a b := by
  funext i
  obtain ⟨e, k, rfl⟩ : ∃ (e : Fin M) (k : Fin 128), i = ix2 e k := ⟨i 0, i 1, eq_ix2 i⟩
  unfold joinRows64
  split_ifs with h1
  · exact Cert.LibConcatRows.concat_rows_piece _ h 0 (by simp) a rfl 0 (by simp) e k ⟨k.val, h1⟩ (by simp)
  · exact Cert.LibConcatRows.concat_rows_piece _ h 1 (by simp) b rfl 64 (by simp) e k
      ⟨k.val - 64, by have := k.isLt; omega⟩ (by simp only; have : ¬ k.val < 64 := h1; omega)

/-- A splat of a constant word over any shape, at one element: the word's value. -/
theorem splat_const_apply {t : Shape} (h : (⟨0, ![]⟩ : Shape).BroadcastsInDim t ![]) (w : BitVec 32) (i : t.Idx) :
    broadcastInDim t ![] h (constant (F := Ideal) (⟨0, ![]⟩ : Shape) .f32 w) i = Ideal.ofBits .f32 w :=
  (broadcastInDim_apply ![] h _ i ix0 (fun a => a.elim0)).trans rfl

/-- The network on the rows of a matrix x, at an element y, is the network on the rows of a matrix X at an element i,
    when row y₀ of x is row i₀ of X and the two elements are in the same column. -/
theorem mlpRows_block {M M' K H₁ H₂ N : ℕ} (z : EReal) (X : (⟨2, ![M, K]⟩ : Shape).Idx → EReal)
    (x : (⟨2, ![M', K]⟩ : Shape).Idx → EReal)
    (w₁ : Fin K → Fin H₁ → EReal) (b₁ : Fin H₁ → EReal)
    (w₂ : Fin H₁ → Fin H₂ → EReal) (b₂ : Fin H₂ → EReal)
    (w₃ : Fin H₂ → Fin N → EReal) (b₃ : Fin N → EReal)
    (y : (⟨2, ![M', N]⟩ : Shape).Idx) (i : (⟨2, ![M, N]⟩ : Shape).Idx)
    (hrow : ∀ k : Fin K, x (ix2 (n0 := M') (y 0) k) = X (ix2 (n0 := M) (i 0) k)) (hcol : (y 1).val = (i 1).val) :
    mlpRows z x w₁ b₁ w₂ b₂ w₃ b₃ y = mlpRows z X w₁ b₁ w₂ b₂ w₃ b₃ i := by
  unfold mlpRows
  have hx : (fun k => x (ix2 (n0 := M') (y 0) k)) = fun k => X (ix2 (n0 := M) (i 0) k) := funext hrow
  rw [hx]
  exact congrArg _ (Fin.ext hcol)

/-- Row r of the join of a and b is row R of the join of A and B when the rows of the pieces are. -/
theorem joinRows64_block {M M' : ℕ} (A B : (⟨2, ![M, 64]⟩ : Shape).Idx → EReal) (a b : (⟨2, ![M', 64]⟩ : Shape).Idx → EReal)
    (r : Fin M') (R : Fin M) (ha : ∀ q : Fin 64, a (ix2 r q) = A (ix2 R q)) (hb : ∀ q : Fin 64, b (ix2 r q) = B (ix2 R q))
    (k : Fin 128) : joinRows64 a b (ix2 r k) = joinRows64 A B (ix2 R k) := by
  show (if h : k.val < 64 then a (ix2 r ⟨k.val, h⟩) else b (ix2 r ⟨k.val - 64, _⟩))
    = (if h : k.val < 64 then A (ix2 R ⟨k.val, h⟩) else B (ix2 R ⟨k.val - 64, _⟩))
  split_ifs with h
  · exact ha _
  · exact hb _

end Cert.LibMlpRows

end
-- ==== Proof.Pay.lean ====
/-
  What each kernel body stores, as a function of the blocks it loads, at the exact values: the message kernel's block of
  12800 rows is the three-layer network applied row by row to the loaded feature rows, and the update kernel's block of
  5000 rows is the network applied row by row to each node's features followed by its aggregated messages. The rounding
  to the narrow format before each product is the identity at the exact values, the products into a zero accumulator
  are plain sums over the contracted coordinate, the biases are one-row matrices broadcast over the rows, and the
  activation is the maximum with zero.
-/
import proofs.«163015_j33019708572043_1_alg».proof.Proof.Gen.KernelIdeal.Skeleton
import proofs.«163015_j33019708572043_1_alg».proof.Proof.LibMlpRows

noncomputable section

open Idealize.ShloMosaic Idealize.ShloMosaic.ValueIdx

namespace Cert.KernelIdeal.Hand

open Cert.KernelIdeal Cert.KernelIdeal.Gen Cert.LibMlpRows

/-- The threshold of the activations: the value of the all-zero word. -/
abbrev z0 : EReal := Ideal.ofBits .f32 0x00000000#32

theorem d0a : dot_S12800x64_S64x128_S12800x128_1_0_0_1_n_n = DotDims.plain 12800 64 128 := rfl
theorem d0b : dot_S12800x128_S128x128_S12800x128_1_0_0_1_n_n = DotDims.plain 12800 128 128 := rfl
theorem d0c : dot_S12800x128_S128x64_S12800x64_1_0_0_1_n_n = DotDims.plain 12800 128 64 := rfl
theorem d1a : dot_S5000x128_S128x128_S5000x128_1_0_0_1_n_n = DotDims.plain 5000 128 128 := rfl
theorem d1c : dot_S5000x128_S128x64_S5000x64_1_0_0_1_n_n = DotDims.plain 5000 128 64 := rfl

/-- The message kernel's stored block: the network on each loaded row. -/
theorem pay0_eq (x0 : Vec Ideal S12800x64 .f32) (x1 : Vec Ideal S64x128 .bf16) (x2 : Vec Ideal S1x128 .f32)
    (x3 : Vec Ideal S128x128 .bf16) (x4 : Vec Ideal S1x128 .f32) (x5 : Vec Ideal S128x64 .bf16) (x6 : Vec Ideal S1x64 .f32) :
    k0_pay1 (F := Ideal) x0 x1 x2 x3 x4 x5 x6
      = mlpRows z0 x0 (fun k n => x1 (ix2 k n)) (fun n => x2 (ix2 (0 : Fin 1) n))
          (fun k n => x3 (ix2 k n)) (fun n => x4 (ix2 (0 : Fin 1) n))
          (fun k n => x5 (ix2 k n)) (fun n => x6 (ix2 (0 : Fin 1) n)) := by
  funext i
  obtain ⟨e, j, rfl⟩ : ∃ (e : Fin 12800) (j : Fin 64), i = ix2 e j := ⟨i 0, i 1, eq_ix2 i⟩
  rw [mlpRows_ix2]
  unfold k0_pay1 mlp3
  simp only [shapeCast_self, d0a, d0b, d0c]
  rw [unit_layer_apply]
  simp only [truncf_apply, maximumf_apply, broadcast_apply, unit_layer_apply]
  rfl

/-- The update kernel's stored block: the network on each node's features followed by its aggregated messages. -/
theorem pay1_eq (x0 x1 : Vec Ideal S5000x64 .f32) (x2 : Vec Ideal S128x128 .bf16) (x3 : Vec Ideal S1x128 .f32)
    (x4 : Vec Ideal S128x128 .bf16) (x5 : Vec Ideal S1x128 .f32) (x6 : Vec Ideal S128x64 .bf16) (x7 : Vec Ideal S1x64 .f32) :
    k1_pay1 (F := Ideal) x0 x1 x2 x3 x4 x5 x6 x7
      = mlpRows z0 (joinRows64 x0 x1) (fun k n => x2 (ix2 k n)) (fun n => x3 (ix2 (0 : Fin 1) n))
          (fun k n => x4 (ix2 k n)) (fun n => x5 (ix2 (0 : Fin 1) n))
          (fun k n => x6 (ix2 k n)) (fun n => x7 (ix2 (0 : Fin 1) n)) := by
  funext i
  obtain ⟨e, j, rfl⟩ : ∃ (e : Fin 5000) (j : Fin 64), i = ix2 e j := ⟨i 0, i 1, eq_ix2 i⟩
  rw [mlpRows_ix2]
  unfold k1_pay1 mlp3
  simp only [shapeCast_self, d1a, d1c]
  rw [unit_layer_apply]
  simp only [truncf_apply, maximumf_apply, broadcast_apply, unit_layer_apply]
  rw [concatenate_eq_joinRows64, shapeCast_self]
  rfl

end Cert.KernelIdeal.Hand

end
-- ==== Proof.Region0.lean ====
/-
  The message kernel's region: what its result array holds when the region ends. Point t of the grid loads rows
  12800·t … 12800·t + 12799 of the gathered features and the whole of each weight and bias, and writes back the network's
  value on those rows; the 125 row blocks tile the array, so the array ends holding the network applied to every row of
  the gathered features.
-/
import proofs.«163015_j33019708572043_1_alg».proof.Proof.Gen.KernelIdeal.Frame
import proofs.«163015_j33019708572043_1_alg».proof.Proof.Pay
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen Cert.LibMlpRows

variable (V : (c : Dev nD) → (b : Ref sig .tc) → Buf (Elt Ideal) ((c : Thread nD τ).loc b))

theorem hz2 : (![0, 0] : Fin 2 → Nat) = fun _ => 0 := funext fun a => by fin_cases a <;> rfl

/-- The network on every row of the array the region finds at the gathered features' buffer, with the weights and
    biases the region finds at theirs. -/
def Y0 (c : Dev nD) : S1600000x64.Idx → EReal :=
  mlpRows z0 (V c main_v10 : S1600000x64.Idx → EReal)
    (fun k n => (V c main_v11 : S64x128.Idx → EReal) (ix2 k n)) (fun n => (V c main_v14 : S1x128.Idx → EReal) (ix2 (0 : Fin 1) n))
    (fun k n => (V c main_v12 : S128x128.Idx → EReal) (ix2 k n)) (fun n => (V c main_v15 : S1x128.Idx → EReal) (ix2 (0 : Fin 1) n))
    (fun k n => (V c main_v13 : S128x64.Idx → EReal) (ix2 k n)) (fun n => (V c main_v16 : S1x64.Idx → EReal) (ix2 (0 : Fin 1) n))

/-- The printed index maps over the grid: the feature window and the result window are at row block t, every weight
    and bias window at its one block. -/
theorem idx_facts0 : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Each weight and bias window's block is the whole of its array. -/
theorem blk0_1 (c : Dev nD) (t : Fin cfg0.N) :
    (iblk0 V c 1 t : S64x128.Idx → EReal) = (V c main_v11 : S64x128.Idx → EReal) := by
  have e := idx_facts0 t
  funext x
  show (V c main_v11 : S64x128.Idx → EReal) (((cfg0.win 1).blk t).view.emb x) = _
  refine congrArg (V c main_v11 : S64x128.Idx → EReal) (funext fun a => Fin.ext ?_)
  match a with
  | ⟨0, _⟩ => show win0_1.index t (0 : Fin 2) * 64 + 1 * (x 0).val = (x 0).val; omega
  | ⟨1, _⟩ => show win0_1.index t (1 : Fin 2) * 128 + 1 * (x 1).val = (x 1).val; omega

theorem blk0_2 (c : Dev nD) (t : Fin cfg0.N) :
    (iblk0 V c 2 t : S1x128.Idx → EReal) = (V c main_v14 : S1x128.Idx → EReal) := by
  have e := idx_facts0 t
  funext x
  show (V c main_v14 : S1x128.Idx → EReal) (((cfg0.win 2).blk t).view.emb x) = _
  refine congrArg (V c main_v14 : S1x128.Idx → EReal) (funext fun a => Fin.ext ?_)
  match a with
  | ⟨0, _⟩ => show win0_2.index t (0 : Fin 2) * 1 + 1 * (x 0).val = (x 0).val; omega
  | ⟨1, _⟩ => show win0_2.index t (1 : Fin 2) * 128 + 1 * (x 1).val = (x 1).val; omega

theorem blk0_3 (c : Dev nD) (t : Fin cfg0.N) :
    (iblk0 V c 3 t : S128x128.Idx → EReal) = (V c main_v12 : S128x128.Idx → EReal) := by
  have e := idx_facts0 t
  funext x
  show (V c main_v12 : S128x128.Idx → EReal) (((cfg0.win 3).blk t).view.emb x) = _
  refine congrArg (V c main_v12 : S128x128.Idx → EReal) (funext fun a => Fin.ext ?_)
  match a with
  | ⟨0, _⟩ => show win0_3.index t (0 : Fin 2) * 128 + 1 * (x 0).val = (x 0).val; omega
  | ⟨1, _⟩ => show win0_3.index t (1 : Fin 2) * 128 + 1 * (x 1).val = (x 1).val; omega

theorem blk0_4 (c : Dev nD) (t : Fin cfg0.N) :
    (iblk0 V c 4 t : S1x128.Idx → EReal) = (V c main_v15 : S1x128.Idx → EReal) := by
  have e := idx_facts0 t
  funext x
  show (V c main_v15 : S1x128.Idx → EReal) (((cfg0.win 4).blk t).view.emb x) = _
  refine congrArg (V c main_v15 : S1x128.Idx → EReal) (funext fun a => Fin.ext ?_)
  match a with
  | ⟨0, _⟩ => show win0_4.index t (0 : Fin 2) * 1 + 1 * (x 0).val = (x 0).val; omega
  | ⟨1, _⟩ => show win0_4.index t (1 : Fin 2) * 128 + 1 * (x 1).val = (x 1).val; omega

theorem blk0_5 (c : Dev nD) (t : Fin cfg0.N) :
    (iblk0 V c 5 t : S128x64.Idx → EReal) = (V c main_v13 : S128x64.Idx → EReal) := by
  have e := idx_facts0 t
  funext x
  show (V c main_v13 : S128x64.Idx → EReal) (((cfg0.win 5).blk t).view.emb x) = _
  refine congrArg (V c main_v13 : S128x64.Idx → EReal) (funext fun a => Fin.ext ?_)
  match a with
  | ⟨0, _⟩ => show win0_5.index t (0 : Fin 2) * 128 + 1 * (x 0).val = (x 0).val; omega
  | ⟨1, _⟩ => show win0_5.index t (1 : Fin 2) * 64 + 1 * (x 1).val = (x 1).val; omega

theorem blk0_6 (c : Dev nD) (t : Fin cfg0.N) :
    (iblk0 V c 6 t : S1x64.Idx → EReal) = (V c main_v16 : S1x64.Idx → EReal) := by
  have e := idx_facts0 t
  funext x
  show (V c main_v16 : S1x64.Idx → EReal) (((cfg0.win 6).blk t).view.emb x) = _
  refine congrArg (V c main_v16 : S1x64.Idx → EReal) (funext fun a => Fin.ext ?_)
  match a with
  | ⟨0, _⟩ => show win0_6.index t (0 : Fin 2) * 1 + 1 * (x 0).val = (x 0).val; omega
  | ⟨1, _⟩ => show win0_6.index t (1 : Fin 2) * 64 + 1 * (x 1).val = (x 1).val; omega

/-- Row r of the feature window's block at point t is row 12800·t + r of the gathered features. -/
theorem blk0_0 (c : Dev nD) (t : Fin cfg0.N) (r : Fin 12800) (k : Fin 64) (R : Fin 1600000)
    (hR : R.val = 12800 * t.val + r.val) :
    (iblk0 V c 0 t : S12800x64.Idx → EReal) (ix2 r k) = (V c main_v10 : S1600000x64.Idx → EReal) (ix2 R k) := by
  have e := idx_facts0 t
  show (V c main_v10 : S1600000x64.Idx → EReal) (((cfg0.win 0).blk t).view.emb (ix2 r k)) = _
  refine congrArg (V c main_v10 : S1600000x64.Idx → EReal) (funext fun a => Fin.ext ?_)
  match a with
  | ⟨0, _⟩ => show win0_0.index t (0 : Fin 2) * 12800 + 1 * r.val = R.val; omega
  | ⟨1, _⟩ => show win0_0.index t (1 : Fin 2) * 64 + 1 * k.val = k.val; omega

/-- What point t writes back is block t of the network applied to every row. -/
theorem flushed0_eq (c : Dev nD) (t : Fin cfg0.N) :
    (dat0 V c).flushed 7 t = ((cfg0.win 7).blk t).view.read (Elt Ideal) (Y0 V c) := by
  show (cfg0.win 7).cut (grid0.coords t) ((dat0 V c).after 7 t) = _
  rw [after0_7]
  unfold out0_7
  rw [View.canon_unit_zero hz2]
  simp only [View.ld_unit_zero (S := S12800x64) hz2, View.ld_unit_zero (S := S64x128) hz2, View.ld_unit_zero (S := S1x128) hz2,
    View.ld_unit_zero (S := S128x128) hz2, View.ld_unit_zero (S := S128x64) hz2, View.ld_unit_zero (S := S1x64) hz2]
  rw [pay0_eq, blk0_1, blk0_2, blk0_3, blk0_4, blk0_5, blk0_6]
  funext y
  have e := idx_facts0 t
  show mlpRows z0 (iblk0 V c 0 t : S12800x64.Idx → EReal) _ _ _ _ _ _ y = Y0 V c (((cfg0.win 7).blk t).view.emb y)
  unfold Y0
  refine mlpRows_block z0 _ _ _ _ _ _ _ _ y _ (fun k => ?_) ?_
  · refine blk0_0 V c t (y 0) k _ ?_
    show win0_7.index t (0 : Fin 2) * 12800 + 1 * (y 0).val = 12800 * t.val + (y 0).val
    omega
  · show (y 1).val = win0_7.index t (1 : Fin 2) * 64 + 1 * (y 1).val
    omega

/-- An index of the result array is in point t's block iff each coordinate is in the block's range on its axis. -/
theorem mem_blk0 (t : Fin cfg0.N) (i : S1600000x64.Idx) :
    i ∈ ((cfg0.win 7).blk t).view.set ↔ ∀ a : Fin 2, win0_7.index t a * S12800x64.size a ≤ (i a).val
      ∧ (i a).val < win0_7.index t a * S12800x64.size a + S12800x64.size a := by
  show i ∈ ((View.whole main_v17).slice (win0_7.rect t)).set ↔ _
  rw [View.set_slice_whole, Rect.mem_set_unit]
  exact Iff.rfl

/-- The region's result array ends holding the network applied to every row: row e lies in the block of point
    e / 12800. -/
theorem final0 (c : Dev nD) : (dat0 V c).arrAt 7 cfg0.N = Y0 V c :=
  (dat0 V c).arrAt_eq_of_cover 7 (Y0 V c) (fun t _ => flushed0_eq V c t) fun i => by
    have hi0 : (i 0).val < 1600000 := (i 0).isLt
    have hi1 : (i 1).val < 64 := (i 1).isLt
    have hN : cfg0.N = 125 := N_0
    have ht : (i 0).val / 12800 < cfg0.N := by rw [hN]; omega
    have e := idx_facts0 ⟨(i 0).val / 12800, ht⟩
    have e0 : win0_7.index ⟨(i 0).val / 12800, ht⟩ (0 : Fin 2) = (i 0).val / 12800 := e.2.2.1
    have e1 : win0_7.index ⟨(i 0).val / 12800, ht⟩ (1 : Fin 2) = 0 := e.2.2.2.1
    refine ⟨⟨(i 0).val / 12800, ht⟩, flush0_7 _, ?_⟩
    rw [mem_blk0]
    intro a
    match a with
    | ⟨0, _⟩ =>
      show win0_7.index ⟨(i 0).val / 12800, ht⟩ (0 : Fin 2) * 12800 ≤ (i 0).val
        ∧ (i 0).val < win0_7.index ⟨(i 0).val / 12800, ht⟩ (0 : Fin 2) * 12800 + 12800
      omega
    | ⟨1, _⟩ =>
      show win0_7.index ⟨(i 0).val / 12800, ht⟩ (1 : Fin 2) * 64 ≤ (i 1).val
        ∧ (i 1).val < win0_7.index ⟨(i 0).val / 12800, ht⟩ (1 : Fin 2) * 64 + 64
      omega

end Cert.KernelIdeal.Hand

end
-- ==== Proof.Region1.lean ====
/-
  The update kernel's region: what its result array holds when the region ends. Point t of the grid loads rows
  5000·t … 5000·t + 4999 of the node features and of the aggregated messages and the whole of each weight and bias, and
  writes back the network's value on each node's features followed by its aggregated messages; the 20 row blocks tile the
  array, so the array ends holding the network applied to every node's joined row.
-/
import proofs.«163015_j33019708572043_1_alg».proof.Proof.Gen.KernelIdeal.Frame
import proofs.«163015_j33019708572043_1_alg».proof.Proof.Pay
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen Cert.LibMlpRows

variable (V : (c : Dev nD) → (b : Ref sig .tc) → Buf (Elt Ideal) ((c : Thread nD τ).loc b))

theorem hz2' : (![0, 0] : Fin 2 → Nat) = fun _ => 0 := funext fun a => by fin_cases a <;> rfl

/-- The network on every node's joined row (features, then aggregated messages) of the arrays the region finds, with
    the weights and biases the region finds at theirs. -/
def O1 (c : Dev nD) : S100000x64.Idx → EReal :=
  mlpRows z0 (joinRows64 (V c main_arg0 : S100000x64.Idx → EReal) (V c main_v20 : S100000x64.Idx → EReal))
    (fun k n => (V c main_v21 : S128x128.Idx → EReal) (ix2 k n)) (fun n => (V c main_v24 : S1x128.Idx → EReal) (ix2 (0 : Fin 1) n))
    (fun k n => (V c main_v22 : S128x128.Idx → EReal) (ix2 k n)) (fun n => (V c main_v25 : S1x128.Idx → EReal) (ix2 (0 : Fin 1) n))
    (fun k n => (V c main_v23 : S128x64.Idx → EReal) (ix2 k n)) (fun n => (V c main_v26 : S1x64.Idx → EReal) (ix2 (0 : Fin 1) n))

/-- The printed index maps over the grid: the two row windows and the result window are at row block t, every weight
    and bias window at its one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Each weight and bias window's block is the whole of its array. -/
theorem blk1_2 (c : Dev nD) (t : Fin cfg1.N) :
    (iblk1 V c 2 t : S128x128.Idx → EReal) = (V c main_v21 : S128x128.Idx → EReal) := by
  have e := idx_facts1 t
  funext x
  show (V c main_v21 : S128x128.Idx → EReal) (((cfg1.win 2).blk t).view.emb x) = _
  refine congrArg (V c main_v21 : S128x128.Idx → EReal) (funext fun a => Fin.ext ?_)
  match a with
  | ⟨0, _⟩ => show win1_2.index t (0 : Fin 2) * 128 + 1 * (x 0).val = (x 0).val; omega
  | ⟨1, _⟩ => show win1_2.index t (1 : Fin 2) * 128 + 1 * (x 1).val = (x 1).val; omega

theorem blk1_3 (c : Dev nD) (t : Fin cfg1.N) :
    (iblk1 V c 3 t : S1x128.Idx → EReal) = (V c main_v24 : S1x128.Idx → EReal) := by
  have e := idx_facts1 t
  funext x
  show (V c main_v24 : S1x128.Idx → EReal) (((cfg1.win 3).blk t).view.emb x) = _
  refine congrArg (V c main_v24 : S1x128.Idx → EReal) (funext fun a => Fin.ext ?_)
  match a with
  | ⟨0, _⟩ => show win1_3.index t (0 : Fin 2) * 1 + 1 * (x 0).val = (x 0).val; omega
  | ⟨1, _⟩ => show win1_3.index t (1 : Fin 2) * 128 + 1 * (x 1).val = (x 1).val; omega

theorem blk1_4 (c : Dev nD) (t : Fin cfg1.N) :
    (iblk1 V c 4 t : S128x128.Idx → EReal) = (V c main_v22 : S128x128.Idx → EReal) := by
  have e := idx_facts1 t
  funext x
  show (V c main_v22 : S128x128.Idx → EReal) (((cfg1.win 4).blk t).view.emb x) = _
  refine congrArg (V c main_v22 : S128x128.Idx → EReal) (funext fun a => Fin.ext ?_)
  match a with
  | ⟨0, _⟩ => show win1_4.index t (0 : Fin 2) * 128 + 1 * (x 0).val = (x 0).val; omega
  | ⟨1, _⟩ => show win1_4.index t (1 : Fin 2) * 128 + 1 * (x 1).val = (x 1).val; omega

theorem blk1_5 (c : Dev nD) (t : Fin cfg1.N) :
    (iblk1 V c 5 t : S1x128.Idx → EReal) = (V c main_v25 : S1x128.Idx → EReal) := by
  have e := idx_facts1 t
  funext x
  show (V c main_v25 : S1x128.Idx → EReal) (((cfg1.win 5).blk t).view.emb x) = _
  refine congrArg (V c main_v25 : S1x128.Idx → EReal) (funext fun a => Fin.ext ?_)
  match a with
  | ⟨0, _⟩ => show win1_5.index t (0 : Fin 2) * 1 + 1 * (x 0).val = (x 0).val; omega
  | ⟨1, _⟩ => show win1_5.index t (1 : Fin 2) * 128 + 1 * (x 1).val = (x 1).val; omega

theorem blk1_6 (c : Dev nD) (t : Fin cfg1.N) :
    (iblk1 V c 6 t : S128x64.Idx → EReal) = (V c main_v23 : S128x64.Idx → EReal) := by
  have e := idx_facts1 t
  funext x
  show (V c main_v23 : S128x64.Idx → EReal) (((cfg1.win 6).blk t).view.emb x) = _
  refine congrArg (V c main_v23 : S128x64.Idx → EReal) (funext fun a => Fin.ext ?_)
  match a with
  | ⟨0, _⟩ => show win1_6.index t (0 : Fin 2) * 128 + 1 * (x 0).val = (x 0).val; omega
  | ⟨1, _⟩ => show win1_6.index t (1 : Fin 2) * 64 + 1 * (x 1).val = (x 1).val; omega

theorem blk1_7 (c : Dev nD) (t : Fin cfg1.N) :
    (iblk1 V c 7 t : S1x64.Idx → EReal) = (V c main_v26 : S1x64.Idx → EReal) := by
  have e := idx_facts1 t
  funext x
  show (V c main_v26 : S1x64.Idx → EReal) (((cfg1.win 7).blk t).view.emb x) = _
  refine congrArg (V c main_v26 : S1x64.Idx → EReal) (funext fun a => Fin.ext ?_)
  match a with
  | ⟨0, _⟩ => show win1_7.index t (0 : Fin 2) * 1 + 1 * (x 0).val = (x 0).val; omega
  | ⟨1, _⟩ => show win1_7.index t (1 : Fin 2) * 64 + 1 * (x 1).val = (x 1).val; omega

/-- Row r of a row window's block at point t is row 5000·t + r of its array. -/
theorem blk1_0 (c : Dev nD) (t : Fin cfg1.N) (r : Fin 5000) (k : Fin 64) (R : Fin 100000)
    (hR : R.val = 5000 * t.val + r.val) :
    (iblk1 V c 0 t : S5000x64.Idx → EReal) (ix2 r k) = (V c main_arg0 : S100000x64.Idx → EReal) (ix2 R k) := by
  have e := idx_facts1 t
  show (V c main_arg0 : S100000x64.Idx → EReal) (((cfg1.win 0).blk t).view.emb (ix2 r k)) = _
  refine congrArg (V c main_arg0 : S100000x64.Idx → EReal) (funext fun a => Fin.ext ?_)
  match a with
  | ⟨0, _⟩ => show win1_0.index t (0 : Fin 2) * 5000 + 1 * r.val = R.val; omega
  | ⟨1, _⟩ => show win1_0.index t (1 : Fin 2) * 64 + 1 * k.val = k.val; omega

theorem blk1_1 (c : Dev nD) (t : Fin cfg1.N) (r : Fin 5000) (k : Fin 64) (R : Fin 100000)
    (hR : R.val = 5000 * t.val + r.val) :
    (iblk1 V c 1 t : S5000x64.Idx → EReal) (ix2 r k) = (V c main_v20 : S100000x64.Idx → EReal) (ix2 R k) := by
  have e := idx_facts1 t
  show (V c main_v20 : S100000x64.Idx → EReal) (((cfg1.win 1).blk t).view.emb (ix2 r k)) = _
  refine congrArg (V c main_v20 : S100000x64.Idx → EReal) (funext fun a => Fin.ext ?_)
  match a with
  | ⟨0, _⟩ => show win1_1.index t (0 : Fin 2) * 5000 + 1 * r.val = R.val; omega
  | ⟨1, _⟩ => show win1_1.index t (1 : Fin 2) * 64 + 1 * k.val = k.val; omega

/-- What point t writes back is block t of the network applied to every joined row. -/
theorem flushed1_eq (c : Dev nD) (t : Fin cfg1.N) :
    (dat1 V c).flushed 8 t = ((cfg1.win 8).blk t).view.read (Elt Ideal) (O1 V c) := by
  show (cfg1.win 8).cut (grid1.coords t) ((dat1 V c).after 8 t) = _
  rw [after1_8]
  unfold out1_8
  rw [View.canon_unit_zero hz2']
  simp only [View.ld_unit_zero (S := S5000x64) hz2', View.ld_unit_zero (S := S1x128) hz2',
    View.ld_unit_zero (S := S128x128) hz2', View.ld_unit_zero (S := S128x64) hz2', View.ld_unit_zero (S := S1x64) hz2']
  rw [pay1_eq, blk1_2, blk1_3, blk1_4, blk1_5, blk1_6, blk1_7]
  funext y
  have e := idx_facts1 t
  show mlpRows z0 (joinRows64 (iblk1 V c 0 t : S5000x64.Idx → EReal) (iblk1 V c 1 t : S5000x64.Idx → EReal)) _ _ _ _ _ _ y
    = O1 V c (((cfg1.win 8).blk t).view.emb y)
  unfold O1
  have hR : ((((cfg1.win 8).blk t).view.emb y) 0).val = 5000 * t.val + (y 0).val := by
    show win1_8.index t (0 : Fin 2) * 5000 + 1 * (y 0).val = 5000 * t.val + (y 0).val
    omega
  refine mlpRows_block z0 _ _ _ _ _ _ _ _ y _ (fun k => ?_) ?_
  · exact joinRows64_block _ _ _ _ (y 0) _ (fun q => blk1_0 V c t (y 0) q _ hR) (fun q => blk1_1 V c t (y 0) q _ hR) k
  · show (y 1).val = win1_8.index t (1 : Fin 2) * 64 + 1 * (y 1).val
    omega

/-- An index of the result array is in point t's block iff each coordinate is in the block's range on its axis. -/
theorem mem_blk1 (t : Fin cfg1.N) (i : S100000x64.Idx) :
    i ∈ ((cfg1.win 8).blk t).view.set ↔ ∀ a : Fin 2, win1_8.index t a * S5000x64.size a ≤ (i a).val
      ∧ (i a).val < win1_8.index t a * S5000x64.size a + S5000x64.size a := by
  show i ∈ ((View.whole main_v27).slice (win1_8.rect t)).set ↔ _
  rw [View.set_slice_whole, Rect.mem_set_unit]
  exact Iff.rfl

/-- The region's result array ends holding the network applied to every joined row: row n lies in the block of point
    n / 5000. -/
theorem final1 (c : Dev nD) : (dat1 V c).arrAt 8 cfg1.N = O1 V c :=
  (dat1 V c).arrAt_eq_of_cover 8 (O1 V c) (fun t _ => flushed1_eq V c t) fun i => by
    have hi0 : (i 0).val < 100000 := (i 0).isLt
    have hi1 : (i 1).val < 64 := (i 1).isLt
    have hN : cfg1.N = 20 := N_1
    have ht : (i 0).val / 5000 < cfg1.N := by rw [hN]; omega
    have e := idx_facts1 ⟨(i 0).val / 5000, ht⟩
    have e0 : win1_8.index ⟨(i 0).val / 5000, ht⟩ (0 : Fin 2) = (i 0).val / 5000 := e.2.2.2.2.1
    have e1 : win1_8.index ⟨(i 0).val / 5000, ht⟩ (1 : Fin 2) = 0 := e.2.2.2.2.2.1
    refine ⟨⟨(i 0).val / 5000, ht⟩, flush1_8 _, ?_⟩
    rw [mem_blk1]
    intro a
    match a with
    | ⟨0, _⟩ =>
      show win1_8.index ⟨(i 0).val / 5000, ht⟩ (0 : Fin 2) * 5000 ≤ (i 0).val
        ∧ (i 0).val < win1_8.index ⟨(i 0).val / 5000, ht⟩ (0 : Fin 2) * 5000 + 5000
      omega
    | ⟨1, _⟩ =>
      show win1_8.index ⟨(i 0).val / 5000, ht⟩ (1 : Fin 2) * 64 ≤ (i 1).val
        ∧ (i 1).val < win1_8.index ⟨(i 0).val / 5000, ht⟩ (1 : Fin 2) * 64 + 64
      omega

end Cert.KernelIdeal.Hand

end
-- ==== Proof.Hosts.lean ====
/-
  What the host operations around the two kernels leave in the buffers the kernels read, as terms of the buffers'
  contents before the stretch: the first stretch gathers the source nodes' feature rows (negative indices wrapped by the
  node count), rounds the message weights to the narrow format and reshapes the message biases to one-row matrices, and
  keeps the destination row of the edge list; the second stretch adds each edge's message into its destination node's
  row of a zero matrix, and rounds and reshapes the update network's weights and biases.
-/
import proofs.«163015_j33019708572043_1_alg».proof.Proof.Gen.KernelIdeal.Launch
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

/-- The source row of the edge list as a column of row indices, a negative index wrapped by the node count. -/
def srcCol (x1 : (⟨S2x1600000, .i32⟩ : BufTy).Contents (Elt Ideal)) : (⟨S1600000x1, .i32⟩ : BufTy).Contents (Elt Ideal) :=
  broadcastInDim S1600000x1 ![0] bcast_S1600000_S1600000x1_0 (select (cmpi .slt (shapeCast _ (extractStridedSlice S1x1600000 ![0, 0] x1 slices_S2x1600000_S1x1600000_0_0) shapeCasts_S1x1600000_S1600000) (broadcastInDim S1600000 ![] bcast_S_S1600000 (constantI S_ 32 0#32))) (addi (shapeCast _ (extractStridedSlice S1x1600000 ![0, 0] x1 slices_S2x1600000_S1x1600000_0_0) shapeCasts_S1x1600000_S1600000) (broadcastInDim S1600000 ![] bcast_S_S1600000 (constantI S_ 32 100000#32))) (shapeCast _ (extractStridedSlice S1x1600000 ![0, 0] x1 slices_S2x1600000_S1x1600000_0_0) shapeCasts_S1x1600000_S1600000))

/-- The destination row of the edge list as a vector. -/
def dstRow (x1 : (⟨S2x1600000, .i32⟩ : BufTy).Contents (Elt Ideal)) : (⟨S1600000, .i32⟩ : BufTy).Contents (Elt Ideal) :=
  shapeCast _ (extractStridedSlice S1x1600000 ![1, 0] x1 slices_S2x1600000_S1x1600000_1_0) shapeCasts_S1x1600000_S1600000

variable (W : Valuation τ sig (Elt Ideal))

theorem h0_v10 : StableHlo.after (hostOps0 (F := Ideal)) W (Proc.devRef .tc main_v10)
    = Host.gather gather_S100000x64_S1600000x1_S1600000x64_1_0_n_n_0_1_164 (W (Proc.devRef .tc main_arg0)) (srcCol (W (Proc.devRef .tc main_arg1))) := by
  dsimp only [hostOps0]; after_results <;> rfl
theorem h0_v3 : StableHlo.after (hostOps0 (F := Ideal)) W (Proc.devRef .tc main_v3) = dstRow (W (Proc.devRef .tc main_arg1)) := by
  dsimp only [hostOps0]; after_results <;> rfl
theorem h0_v11 : StableHlo.after (hostOps0 (F := Ideal)) W (Proc.devRef .tc main_v11) = ((truncf (F := Ideal) .bf16 · bitsLt_bf16_f32) : (⟨S64x128, .f32⟩ : BufTy).Contents (Elt Ideal) → (⟨S64x128, .bf16⟩ : BufTy).Contents (Elt Ideal)) (W (Proc.devRef .tc main_arg2)) := by
  dsimp only [hostOps0]; after_results <;> rfl
theorem h0_v12 : StableHlo.after (hostOps0 (F := Ideal)) W (Proc.devRef .tc main_v12) = ((truncf (F := Ideal) .bf16 · bitsLt_bf16_f32) : (⟨S128x128, .f32⟩ : BufTy).Contents (Elt Ideal) → (⟨S128x128, .bf16⟩ : BufTy).Contents (Elt Ideal)) (W (Proc.devRef .tc main_arg4)) := by
  dsimp only [hostOps0]; after_results <;> rfl
theorem h0_v13 : StableHlo.after (hostOps0 (F := Ideal)) W (Proc.devRef .tc main_v13) = ((truncf (F := Ideal) .bf16 · bitsLt_bf16_f32) : (⟨S128x64, .f32⟩ : BufTy).Contents (Elt Ideal) → (⟨S128x64, .bf16⟩ : BufTy).Contents (Elt Ideal)) (W (Proc.devRef .tc main_arg6)) := by
  dsimp only [hostOps0]; after_results <;> rfl
theorem h0_v14 : StableHlo.after (hostOps0 (F := Ideal)) W (Proc.devRef .tc main_v14) = shapeCast _ (W (Proc.devRef .tc main_arg3)) shapeCasts_S128_S1x128 := by
  dsimp only [hostOps0]; after_results <;> rfl
theorem h0_v15 : StableHlo.after (hostOps0 (F := Ideal)) W (Proc.devRef .tc main_v15) = shapeCast _ (W (Proc.devRef .tc main_arg5)) shapeCasts_S128_S1x128 := by
  dsimp only [hostOps0]; after_results <;> rfl
theorem h0_v16 : StableHlo.after (hostOps0 (F := Ideal)) W (Proc.devRef .tc main_v16) = shapeCast _ (W (Proc.devRef .tc main_arg7)) shapeCasts_S64_S1x64 := by
  dsimp only [hostOps0]; after_results <;> rfl

/-- The first stretch writes no argument. -/
theorem h0_arg0 : StableHlo.after (hostOps0 (F := Ideal)) W (Proc.devRef .tc main_arg0) = W (Proc.devRef .tc main_arg0) := by
  dsimp only [hostOps0]; after_results
theorem h0_arg8 : StableHlo.after (hostOps0 (F := Ideal)) W (Proc.devRef .tc main_arg8) = W (Proc.devRef .tc main_arg8) := by
  dsimp only [hostOps0]; after_results
theorem h0_arg9 : StableHlo.after (hostOps0 (F := Ideal)) W (Proc.devRef .tc main_arg9) = W (Proc.devRef .tc main_arg9) := by
  dsimp only [hostOps0]; after_results
theorem h0_arg10 : StableHlo.after (hostOps0 (F := Ideal)) W (Proc.devRef .tc main_arg10) = W (Proc.devRef .tc main_arg10) := by
  dsimp only [hostOps0]; after_results
theorem h0_arg11 : StableHlo.after (hostOps0 (F := Ideal)) W (Proc.devRef .tc main_arg11) = W (Proc.devRef .tc main_arg11) := by
  dsimp only [hostOps0]; after_results
theorem h0_arg12 : StableHlo.after (hostOps0 (F := Ideal)) W (Proc.devRef .tc main_arg12) = W (Proc.devRef .tc main_arg12) := by
  dsimp only [hostOps0]; after_results
theorem h0_arg13 : StableHlo.after (hostOps0 (F := Ideal)) W (Proc.devRef .tc main_arg13) = W (Proc.devRef .tc main_arg13) := by
  dsimp only [hostOps0]; after_results

/-- The second stretch: the aggregation, the update network's weights and biases, and the node features untouched. -/
theorem h1_v20 : StableHlo.after (hostOps1 (F := Ideal)) W (Proc.devRef .tc main_v20)
    = Host.scatterAdd (F := Ideal) scatter_S100000x64_S1600000x1_S1600000x64_1_0_0_1 (broadcastInDim S100000x64 ![] bcast_S_S100000x64 (constant (F := Ideal) S_ .f32 0x00000000#32))
        (broadcastInDim S1600000x1 ![0] bcast_S1600000_S1600000x1_0 (W (Proc.devRef .tc main_v3))) (W (Proc.devRef .tc main_v17)) := by
  dsimp only [hostOps1]; after_results <;> rfl
theorem h1_v21 : StableHlo.after (hostOps1 (F := Ideal)) W (Proc.devRef .tc main_v21) = ((truncf (F := Ideal) .bf16 · bitsLt_bf16_f32) : (⟨S128x128, .f32⟩ : BufTy).Contents (Elt Ideal) → (⟨S128x128, .bf16⟩ : BufTy).Contents (Elt Ideal)) (W (Proc.devRef .tc main_arg8)) := by
  dsimp only [hostOps1]; after_results <;> rfl
theorem h1_v22 : StableHlo.after (hostOps1 (F := Ideal)) W (Proc.devRef .tc main_v22) = ((truncf (F := Ideal) .bf16 · bitsLt_bf16_f32) : (⟨S128x128, .f32⟩ : BufTy).Contents (Elt Ideal) → (⟨S128x128, .bf16⟩ : BufTy).Contents (Elt Ideal)) (W (Proc.devRef .tc main_arg10)) := by
  dsimp only [hostOps1]; after_results <;> rfl
theorem h1_v23 : StableHlo.after (hostOps1 (F := Ideal)) W (Proc.devRef .tc main_v23) = ((truncf (F := Ideal) .bf16 · bitsLt_bf16_f32) : (⟨S128x64, .f32⟩ : BufTy).Contents (Elt Ideal) → (⟨S128x64, .bf16⟩ : BufTy).Contents (Elt Ideal)) (W (Proc.devRef .tc main_arg12)) := by
  dsimp only [hostOps1]; after_results <;> rfl
theorem h1_v24 : StableHlo.after (hostOps1 (F := Ideal)) W (Proc.devRef .tc main_v24) = shapeCast _ (W (Proc.devRef .tc main_arg9)) shapeCasts_S128_S1x128 := by
  dsimp only [hostOps1]; after_results <;> rfl
theorem h1_v25 : StableHlo.after (hostOps1 (F := Ideal)) W (Proc.devRef .tc main_v25) = shapeCast _ (W (Proc.devRef .tc main_arg11)) shapeCasts_S128_S1x128 := by
  dsimp only [hostOps1]; after_results <;> rfl
theorem h1_v26 : StableHlo.after (hostOps1 (F := Ideal)) W (Proc.devRef .tc main_v26) = shapeCast _ (W (Proc.devRef .tc main_arg13)) shapeCasts_S64_S1x64 := by
  dsimp only [hostOps1]; after_results <;> rfl
theorem h1_arg0 : StableHlo.after (hostOps1 (F := Ideal)) W (Proc.devRef .tc main_arg0) = W (Proc.devRef .tc main_arg0) := by
  dsimp only [hostOps1]; after_results

end Cert.KernelIdeal.Hand

end
-- ==== Proof.KernelValue.lean ====
/-
  The value the kernel program leaves in its result array, at the exact values and as one term of the arguments: the
  update network applied to each node's features joined with its aggregated messages, the aggregation adding each
  edge's message into its destination's row of a zero matrix, a message being the message network applied to the
  feature row of the edge's source. Read off the run boundary by boundary: a region's result is the network applied to
  every row of what the region found (the two region modules), and what a region finds is what the host stretch before
  it computed from what the previous boundary held.
-/
import proofs.«163015_j33019708572043_1_alg».proof.Proof.Gen.KernelIdeal.Frame
import proofs.«163015_j33019708572043_1_alg».proof.Proof.Region0
import proofs.«163015_j33019708572043_1_alg».proof.Proof.Region1
import proofs.«163015_j33019708572043_1_alg».proof.Proof.Hosts
import proofs.«163015_j33019708572043_1_alg».proof.Proof.KernelRun

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen Cert.LibMlpRows

variable (m : (ℓ : Loc nD τ sig) → Buf (Elt Ideal) ℓ) (ρ : Dev nD → PrngReg)

/-- A bias vector reshaped to a one-row matrix, read at column n, is the vector's entry n. -/
theorem row_of_vec {N : ℕ} (b : (⟨1, ![N]⟩ : Shape).Idx → EReal) (h : (⟨1, ![N]⟩ : Shape).ShapeCasts ⟨2, ![1, N]⟩) (n : Fin N) :
    shapeCast (⟨2, ![1, N]⟩ : Shape) b h (ix2 (0 : Fin 1) n) = b (ix1 n) := by
  refine shapeCast_apply b h _ _ ?_
  rw [Shape.rowMajor_val_one, Shape.rowMajor_val_two]
  show n.val = 0 * N + n.val
  omega

/-- Every edge's message: the message network on the feature row of the edge's source. -/
def msgs (c : Dev nD) : S1600000x64.Idx → EReal :=
  mlpRows z0 (Host.gather gather_S100000x64_S1600000x1_S1600000x64_1_0_n_n_0_1_164 (m ((c.tc : Thread nD τ).loc main_arg0)) (srcCol (m ((c.tc : Thread nD τ).loc main_arg1))))
    (fun k n => (m ((c.tc : Thread nD τ).loc main_arg2) : S64x128.Idx → EReal) (ix2 k n)) (fun n => (m ((c.tc : Thread nD τ).loc main_arg3) : S128.Idx → EReal) (ix1 n))
    (fun k n => (m ((c.tc : Thread nD τ).loc main_arg4) : S128x128.Idx → EReal) (ix2 k n)) (fun n => (m ((c.tc : Thread nD τ).loc main_arg5) : S128.Idx → EReal) (ix1 n))
    (fun k n => (m ((c.tc : Thread nD τ).loc main_arg6) : S128x64.Idx → EReal) (ix2 k n)) (fun n => (m ((c.tc : Thread nD τ).loc main_arg7) : S64.Idx → EReal) (ix1 n))

/-- Every node's aggregated messages: each edge's message added into its destination's row of a zero matrix. -/
def aggr (c : Dev nD) : S100000x64.Idx → EReal :=
  Host.scatterAdd (F := Ideal) scatter_S100000x64_S1600000x1_S1600000x64_1_0_0_1 (broadcastInDim S100000x64 ![] bcast_S_S100000x64 (constant (F := Ideal) S_ .f32 0x00000000#32))
    (broadcastInDim S1600000x1 ![0] bcast_S1600000_S1600000x1_0 (dstRow (m ((c.tc : Thread nD τ).loc main_arg1)))) (msgs m c)

/-- The result: the update network on each node's features joined with its aggregated messages. -/
def kval (c : Dev nD) : S100000x64.Idx → EReal :=
  mlpRows z0 (joinRows64 (m ((c.tc : Thread nD τ).loc main_arg0) : S100000x64.Idx → EReal) (aggr m c))
    (fun k n => (m ((c.tc : Thread nD τ).loc main_arg8) : S128x128.Idx → EReal) (ix2 k n)) (fun n => (m ((c.tc : Thread nD τ).loc main_arg9) : S128.Idx → EReal) (ix1 n))
    (fun k n => (m ((c.tc : Thread nD τ).loc main_arg10) : S128x128.Idx → EReal) (ix2 k n)) (fun n => (m ((c.tc : Thread nD τ).loc main_arg11) : S128.Idx → EReal) (ix1 n))
    (fun k n => (m ((c.tc : Thread nD τ).loc main_arg12) : S128x64.Idx → EReal) (ix2 k n)) (fun n => (m ((c.tc : Thread nD τ).loc main_arg13) : S64.Idx → EReal) (ix1 n))

/-! ## What the message kernel's region finds -/

theorem V1_v10 (c : Dev nD) : (V1 m ρ c main_v10 : S1600000x64.Idx → EReal)
    = Host.gather gather_S100000x64_S1600000x1_S1600000x64_1_0_n_n_0_1_164 (m ((c.tc : Thread nD τ).loc main_arg0)) (srcCol (m ((c.tc : Thread nD τ).loc main_arg1))) := by
  show StableHlo.after (hostOps0 (F := Ideal)) (W0 m ρ c) (Proc.devRef .tc main_v10) = _
  rw [h0_v10]
theorem V1_v11 (c : Dev nD) (k : Fin 64) (n : Fin 128) : (V1 m ρ c main_v11 : S64x128.Idx → EReal) (ix2 k n) = (m ((c.tc : Thread nD τ).loc main_arg2) : S64x128.Idx → EReal) (ix2 k n) := by
  show (StableHlo.after (hostOps0 (F := Ideal)) (W0 m ρ c) (Proc.devRef .tc main_v11) : S64x128.Idx → EReal) (ix2 k n) = _
  rw [h0_v11]; rfl
theorem V1_v12 (c : Dev nD) (k : Fin 128) (n : Fin 128) : (V1 m ρ c main_v12 : S128x128.Idx → EReal) (ix2 k n) = (m ((c.tc : Thread nD τ).loc main_arg4) : S128x128.Idx → EReal) (ix2 k n) := by
  show (StableHlo.after (hostOps0 (F := Ideal)) (W0 m ρ c) (Proc.devRef .tc main_v12) : S128x128.Idx → EReal) (ix2 k n) = _
  rw [h0_v12]; rfl
theorem V1_v13 (c : Dev nD) (k : Fin 128) (n : Fin 64) : (V1 m ρ c main_v13 : S128x64.Idx → EReal) (ix2 k n) = (m ((c.tc : Thread nD τ).loc main_arg6) : S128x64.Idx → EReal) (ix2 k n) := by
  show (StableHlo.after (hostOps0 (F := Ideal)) (W0 m ρ c) (Proc.devRef .tc main_v13) : S128x64.Idx → EReal) (ix2 k n) = _
  rw [h0_v13]; rfl
theorem V1_v14 (c : Dev nD) (n : Fin 128) : (V1 m ρ c main_v14 : S1x128.Idx → EReal) (ix2 (0 : Fin 1) n) = (m ((c.tc : Thread nD τ).loc main_arg3) : S128.Idx → EReal) (ix1 n) := by
  show (StableHlo.after (hostOps0 (F := Ideal)) (W0 m ρ c) (Proc.devRef .tc main_v14) : S1x128.Idx → EReal) (ix2 (0 : Fin 1) n) = _
  rw [h0_v14]; exact row_of_vec _ _ n
theorem V1_v15 (c : Dev nD) (n : Fin 128) : (V1 m ρ c main_v15 : S1x128.Idx → EReal) (ix2 (0 : Fin 1) n) = (m ((c.tc : Thread nD τ).loc main_arg5) : S128.Idx → EReal) (ix1 n) := by
  show (StableHlo.after (hostOps0 (F := Ideal)) (W0 m ρ c) (Proc.devRef .tc main_v15) : S1x128.Idx → EReal) (ix2 (0 : Fin 1) n) = _
  rw [h0_v15]; exact row_of_vec _ _ n
theorem V1_v16 (c : Dev nD) (n : Fin 64) : (V1 m ρ c main_v16 : S1x64.Idx → EReal) (ix2 (0 : Fin 1) n) = (m ((c.tc : Thread nD τ).loc main_arg7) : S64.Idx → EReal) (ix1 n) := by
  show (StableHlo.after (hostOps0 (F := Ideal)) (W0 m ρ c) (Proc.devRef .tc main_v16) : S1x64.Idx → EReal) (ix2 (0 : Fin 1) n) = _
  rw [h0_v16]; exact row_of_vec _ _ n

/-- The message kernel's region ends with every edge's message in its result array. -/
theorem Y0_V1 (c : Dev nD) : Y0 (V1 m ρ) c = msgs m c := by
  unfold Y0 msgs
  rw [V1_v10]
  refine congr (congr (congr (congr (congr (congrArg (mlpRows z0 _) ?_) ?_) ?_) ?_) ?_) ?_
  · funext k n; exact V1_v11 m ρ c k n
  · funext n; exact V1_v14 m ρ c n
  · funext k n; exact V1_v12 m ρ c k n
  · funext n; exact V1_v15 m ρ c n
  · funext k n; exact V1_v13 m ρ c k n
  · funext n; exact V1_v16 m ρ c n

/-! ## What the update kernel's region finds -/

/-- The message kernel's result array, as the boundary after its region holds it. -/
theorem W2_v17 (c : Dev nD) : (W2 m ρ c (Proc.devRef .tc main_v17) : S1600000x64.Idx → EReal) = msgs m c :=
  (W2_arr m ρ c 7).trans ((final0 (V1 m ρ) c).trans (Y0_V1 m ρ c))

theorem W2_v3 (c : Dev nD) : W2 m ρ c (Proc.devRef .tc main_v3) = dstRow (m ((c.tc : Thread nD τ).loc main_arg1)) := by
  rw [W2_of_ne m ρ c main_v3 (by decide)]
  show StableHlo.after (hostOps0 (F := Ideal)) (W0 m ρ c) (Proc.devRef .tc main_v3) = _
  rw [h0_v3]
theorem W2_arg0 (c : Dev nD) : W2 m ρ c (Proc.devRef .tc main_arg0) = m ((c.tc : Thread nD τ).loc main_arg0) := by
  rw [W2_of_ne m ρ c main_arg0 (by decide)]
  show StableHlo.after (hostOps0 (F := Ideal)) (W0 m ρ c) (Proc.devRef .tc main_arg0) = _
  rw [h0_arg0]
theorem W2_arg8 (c : Dev nD) : W2 m ρ c (Proc.devRef .tc main_arg8) = m ((c.tc : Thread nD τ).loc main_arg8) := by
  rw [W2_of_ne m ρ c main_arg8 (by decide)]
  show StableHlo.after (hostOps0 (F := Ideal)) (W0 m ρ c) (Proc.devRef .tc main_arg8) = _
  rw [h0_arg8]
theorem W2_arg9 (c : Dev nD) : W2 m ρ c (Proc.devRef .tc main_arg9) = m ((c.tc : Thread nD τ).loc main_arg9) := by
  rw [W2_of_ne m ρ c main_arg9 (by decide)]
  show StableHlo.after (hostOps0 (F := Ideal)) (W0 m ρ c) (Proc.devRef .tc main_arg9) = _
  rw [h0_arg9]
theorem W2_arg10 (c : Dev nD) : W2 m ρ c (Proc.devRef .tc main_arg10) = m ((c.tc : Thread nD τ).loc main_arg10) := by
  rw [W2_of_ne m ρ c main_arg10 (by decide)]
  show StableHlo.after (hostOps0 (F := Ideal)) (W0 m ρ c) (Proc.devRef .tc main_arg10) = _
  rw [h0_arg10]
theorem W2_arg11 (c : Dev nD) : W2 m ρ c (Proc.devRef .tc main_arg11) = m ((c.tc : Thread nD τ).loc main_arg11) := by
  rw [W2_of_ne m ρ c main_arg11 (by decide)]
  show StableHlo.after (hostOps0 (F := Ideal)) (W0 m ρ c) (Proc.devRef .tc main_arg11) = _
  rw [h0_arg11]
theorem W2_arg12 (c : Dev nD) : W2 m ρ c (Proc.devRef .tc main_arg12) = m ((c.tc : Thread nD τ).loc main_arg12) := by
  rw [W2_of_ne m ρ c main_arg12 (by decide)]
  show StableHlo.after (hostOps0 (F := Ideal)) (W0 m ρ c) (Proc.devRef .tc main_arg12) = _
  rw [h0_arg12]
theorem W2_arg13 (c : Dev nD) : W2 m ρ c (Proc.devRef .tc main_arg13) = m ((c.tc : Thread nD τ).loc main_arg13) := by
  rw [W2_of_ne m ρ c main_arg13 (by decide)]
  show StableHlo.after (hostOps0 (F := Ideal)) (W0 m ρ c) (Proc.devRef .tc main_arg13) = _
  rw [h0_arg13]

theorem V3_v20 (c : Dev nD) : (V3 m ρ c main_v20 : S100000x64.Idx → EReal) = aggr m c := by
  show StableHlo.after (hostOps1 (F := Ideal)) (W2 m ρ c) (Proc.devRef .tc main_v20) = _
  rw [h1_v20, W2_v3, W2_v17]; rfl
theorem V3_arg0 (c : Dev nD) : (V3 m ρ c main_arg0 : S100000x64.Idx → EReal) = m ((c.tc : Thread nD τ).loc main_arg0) := by
  show StableHlo.after (hostOps1 (F := Ideal)) (W2 m ρ c) (Proc.devRef .tc main_arg0) = _
  rw [h1_arg0, W2_arg0]
theorem V3_v21 (c : Dev nD) (k : Fin 128) (n : Fin 128) : (V3 m ρ c main_v21 : S128x128.Idx → EReal) (ix2 k n) = (m ((c.tc : Thread nD τ).loc main_arg8) : S128x128.Idx → EReal) (ix2 k n) := by
  show (StableHlo.after (hostOps1 (F := Ideal)) (W2 m ρ c) (Proc.devRef .tc main_v21) : S128x128.Idx → EReal) (ix2 k n) = _
  rw [h1_v21, W2_arg8]; rfl
theorem V3_v22 (c : Dev nD) (k : Fin 128) (n : Fin 128) : (V3 m ρ c main_v22 : S128x128.Idx → EReal) (ix2 k n) = (m ((c.tc : Thread nD τ).loc main_arg10) : S128x128.Idx → EReal) (ix2 k n) := by
  show (StableHlo.after (hostOps1 (F := Ideal)) (W2 m ρ c) (Proc.devRef .tc main_v22) : S128x128.Idx → EReal) (ix2 k n) = _
  rw [h1_v22, W2_arg10]; rfl
theorem V3_v23 (c : Dev nD) (k : Fin 128) (n : Fin 64) : (V3 m ρ c main_v23 : S128x64.Idx → EReal) (ix2 k n) = (m ((c.tc : Thread nD τ).loc main_arg12) : S128x64.Idx → EReal) (ix2 k n) := by
  show (StableHlo.after (hostOps1 (F := Ideal)) (W2 m ρ c) (Proc.devRef .tc main_v23) : S128x64.Idx → EReal) (ix2 k n) = _
  rw [h1_v23, W2_arg12]; rfl
theorem V3_v24 (c : Dev nD) (n : Fin 128) : (V3 m ρ c main_v24 : S1x128.Idx → EReal) (ix2 (0 : Fin 1) n) = (m ((c.tc : Thread nD τ).loc main_arg9) : S128.Idx → EReal) (ix1 n) := by
  show (StableHlo.after (hostOps1 (F := Ideal)) (W2 m ρ c) (Proc.devRef .tc main_v24) : S1x128.Idx → EReal) (ix2 (0 : Fin 1) n) = _
  rw [h1_v24, W2_arg9]; exact row_of_vec _ _ n
theorem V3_v25 (c : Dev nD) (n : Fin 128) : (V3 m ρ c main_v25 : S1x128.Idx → EReal) (ix2 (0 : Fin 1) n) = (m ((c.tc : Thread nD τ).loc main_arg11) : S128.Idx → EReal) (ix1 n) := by
  show (StableHlo.after (hostOps1 (F := Ideal)) (W2 m ρ c) (Proc.devRef .tc main_v25) : S1x128.Idx → EReal) (ix2 (0 : Fin 1) n) = _
  rw [h1_v25, W2_arg11]; exact row_of_vec _ _ n
theorem V3_v26 (c : Dev nD) (n : Fin 64) : (V3 m ρ c main_v26 : S1x64.Idx → EReal) (ix2 (0 : Fin 1) n) = (m ((c.tc : Thread nD τ).loc main_arg13) : S64.Idx → EReal) (ix1 n) := by
  show (StableHlo.after (hostOps1 (F := Ideal)) (W2 m ρ c) (Proc.devRef .tc main_v26) : S1x64.Idx → EReal) (ix2 (0 : Fin 1) n) = _
  rw [h1_v26, W2_arg13]; exact row_of_vec _ _ n

/-- The update kernel's region ends with the result in its result array. -/
theorem O1_V3 (c : Dev nD) : O1 (V3 m ρ) c = kval m c := by
  unfold O1 kval
  rw [V3_arg0, V3_v20]
  refine congr (congr (congr (congr (congr (congrArg (mlpRows z0 _) ?_) ?_) ?_) ?_) ?_) ?_
  · funext k n; exact V3_v21 m ρ c k n
  · funext n; exact V3_v24 m ρ c n
  · funext k n; exact V3_v22 m ρ c k n
  · funext n; exact V3_v25 m ρ c n
  · funext k n; exact V3_v23 m ρ c k n
  · funext n; exact V3_v26 m ρ c n

/-- The last boundary's contents at the result array. -/
theorem W4_v27 (c : Dev nD) : (W4 m ρ c (Proc.devRef .tc main_v27) : S100000x64.Idx → EReal) = kval m c :=
  (W4_arr m ρ c 8).trans ((final1 (V3 m ρ) c).trans (O1_V3 m ρ c))

/-- The run of the kernel program with its result named. -/
theorem run : θ_run defs (onTc (τ := τ) (main (F := Ideal))) ⟨m, fun _ => 0, ρ⟩ (fun r => ∀ c : Dev nD,
      r.2.mem ((c.tc : Thread nD τ).loc main_v27) = kval m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (W4_v27 m ρ c), (h c).2⟩) (run_result m ρ)

end Cert.KernelIdeal.Hand

end
-- ==== Proof.RefValue.lean ====
/-
  The reference's two networks read as whole matrices at the exact values: the three products with their broadcast
  biases and the two maxima with zero are, row by row, the three-layer network; the update network's input is the node
  features joined along the columns with whatever matrix the aggregation produced.
-/
import proofs.«163015_j33019708572043_1_alg».proof.Proof.Gen.ReferenceIdeal
import proofs.«163015_j33019708572043_1_alg».proof.Proof.LibMlpRows

noncomputable section

open Idealize.ShloMosaic Idealize.ShloMosaic.ValueIdx

namespace Cert.ReferenceIdeal.Hand

open Cert.ReferenceIdeal Cert.ReferenceIdeal.Gen Cert.LibMlpRows

/-- The threshold of the activations: the value of the all-zero word. -/
abbrev z0 : EReal := Ideal.ofBits .f32 0x00000000#32

theorem dRa : dot_S1600000x64_S64x128_S1600000x128_1_0_0_1_n_n = DotDims.plain 1600000 64 128 := rfl
theorem dRb : dot_S1600000x128_S128x128_S1600000x128_1_0_0_1_n_n = DotDims.plain 1600000 128 128 := rfl
theorem dRc : dot_S1600000x128_S128x64_S1600000x64_1_0_0_1_n_n = DotDims.plain 1600000 128 64 := rfl
theorem dRd : dot_S100000x128_S128x128_S100000x128_1_0_0_1_n_n = DotDims.plain 100000 128 128 := rfl
theorem dRe : dot_S100000x128_S128x64_S100000x64_1_0_0_1_n_n = DotDims.plain 100000 128 64 := rfl

/-- The message network over all edges: the network on each row of x. -/
theorem ref_msg (x : FVec Ideal S1600000x64 .f32) (w1 : FVec Ideal S64x128 .f32) (b1 : FVec Ideal S128 .f32)
    (w2 : FVec Ideal S128x128 .f32) (b2 : FVec Ideal S128 .f32) (w3 : FVec Ideal S128x64 .f32) (b3 : FVec Ideal S64 .f32) :
    addf (Host.dotGeneral dot_S1600000x128_S128x64_S1600000x64_1_0_0_1_n_n none (maximumf (addf (Host.dotGeneral dot_S1600000x128_S128x128_S1600000x128_1_0_0_1_n_n none (maximumf (addf (Host.dotGeneral dot_S1600000x64_S64x128_S1600000x128_1_0_0_1_n_n none x w1) (broadcastInDim S1600000x128 ![0, 1] bcast_S1x128_S1600000x128_0_1 (broadcastInDim S1x128 ![1] bcast_S128_S1x128_1 b1))) (broadcastInDim S1600000x128 ![] bcast_S_S1600000x128 (constant S_ .f32 0x00000000#32))) w2) (broadcastInDim S1600000x128 ![0, 1] bcast_S1x128_S1600000x128_0_1 (broadcastInDim S1x128 ![1] bcast_S128_S1x128_1 b2))) (broadcastInDim S1600000x128 ![] bcast_S_S1600000x128 (constant S_ .f32 0x00000000#32))) w3) (broadcastInDim S1600000x64 ![0, 1] bcast_S1x64_S1600000x64_0_1 (broadcastInDim S1x64 ![1] bcast_S64_S1x64_1 b3))
      = mlpRows z0 x (fun k n => w1 (ix2 k n)) (fun n => b1 (ix1 n)) (fun k n => w2 (ix2 k n)) (fun n => b2 (ix1 n))
          (fun k n => w3 (ix2 k n)) (fun n => b3 (ix1 n)) := by
  funext i
  obtain ⟨e, j, rfl⟩ : ∃ (e : Fin 1600000) (j : Fin 64), i = ix2 e j := ⟨i 0, i 1, eq_ix2 i⟩
  rw [mlpRows_ix2]
  unfold mlp3
  simp only [dRa, dRb, dRc]
  rw [host_layer_apply]
  refine congrArg (fun f => layer f _ _ j) (funext fun k => ?_)
  rw [maximumf_apply, splat_const_apply, host_layer_apply]
  refine congrArg (fun f => max (layer f _ _ k) z0) (funext fun k' => ?_)
  rw [maximumf_apply, splat_const_apply, host_layer_apply]
  rfl

/-- The update network over all nodes: the network on each node's features followed by row of z. -/
theorem ref_upd (nf z : FVec Ideal S100000x64 .f32) (w1 : FVec Ideal S128x128 .f32) (b1 : FVec Ideal S128 .f32)
    (w2 : FVec Ideal S128x128 .f32) (b2 : FVec Ideal S128 .f32) (w3 : FVec Ideal S128x64 .f32) (b3 : FVec Ideal S64 .f32) :
    addf (Host.dotGeneral dot_S100000x128_S128x64_S100000x64_1_0_0_1_n_n none (maximumf (addf (Host.dotGeneral dot_S100000x128_S128x128_S100000x128_1_0_0_1_n_n none (maximumf (addf (Host.dotGeneral dot_S100000x128_S128x128_S100000x128_1_0_0_1_n_n none (concatenate S100000x128 1 [⟨S100000x64, nf⟩, ⟨S100000x64, z⟩] concatenates_S100000x64_S100000x64_S100000x128_d1) w1) (broadcastInDim S100000x128 ![0, 1] bcast_S1x128_S100000x128_0_1 (broadcastInDim S1x128 ![1] bcast_S128_S1x128_1 b1))) (broadcastInDim S100000x128 ![] bcast_S_S100000x128 (constant S_ .f32 0x00000000#32))) w2) (broadcastInDim S100000x128 ![0, 1] bcast_S1x128_S100000x128_0_1 (broadcastInDim S1x128 ![1] bcast_S128_S1x128_1 b2))) (broadcastInDim S100000x128 ![] bcast_S_S100000x128 (constant S_ .f32 0x00000000#32))) w3) (broadcastInDim S100000x64 ![0, 1] bcast_S1x64_S100000x64_0_1 (broadcastInDim S1x64 ![1] bcast_S64_S1x64_1 b3))
      = mlpRows z0 (joinRows64 nf z) (fun k n => w1 (ix2 k n)) (fun n => b1 (ix1 n)) (fun k n => w2 (ix2 k n)) (fun n => b2 (ix1 n))
          (fun k n => w3 (ix2 k n)) (fun n => b3 (ix1 n)) := by
  funext i
  obtain ⟨e, j, rfl⟩ : ∃ (e : Fin 100000) (j : Fin 64), i = ix2 e j := ⟨i 0, i 1, eq_ix2 i⟩
  rw [mlpRows_ix2]
  unfold mlp3
  simp only [dRd, dRe]
  rw [host_layer_apply]
  refine congrArg (fun f => layer f _ _ j) (funext fun k => ?_)
  rw [maximumf_apply, splat_const_apply, host_layer_apply]
  refine congrArg (fun f => max (layer f _ _ k) z0) (funext fun k' => ?_)
  rw [maximumf_apply, splat_const_apply, host_layer_apply, concatenate_eq_joinRows64]
  rfl

end Cert.ReferenceIdeal.Hand

end
-- ==== Proof.lean ====
/-
  The two programs compute the same message-passing layer. Each gathers the source node's feature row for every edge,
  applies a three-layer network (affine, maximum with zero, affine, maximum with zero, affine) to it, adds the
  messages into their destination nodes' rows, and applies a second three-layer network to each node's features joined
  with its aggregated messages. The kernel program runs the two networks block by block over the rows (12800 edges and
  5000 nodes at a time), with the weights rounded to a narrow format and the biases as one-row matrices; at the exact
  values the rounding is the identity, every product is the plain sum over the contracted coordinate, and a row of a
  block is a row of the whole matrix, so both programs end with the same matrix. No law of the extended reals beyond
  the equality of these terms is needed, and the precondition is never opened.
-/
import proofs.«163015_j33019708572043_1_alg».proof.Defs
import proofs.«163015_j33019708572043_1_alg».proof.Proof.Gen.Kernel
import proofs.«163015_j33019708572043_1_alg».proof.Proof.Gen.Kernel.Frame
import proofs.«163015_j33019708572043_1_alg».proof.Proof.Gen.KernelIdeal
import proofs.«163015_j33019708572043_1_alg».proof.Proof.Gen.KernelIdeal.Frame
import proofs.«163015_j33019708572043_1_alg».proof.Proof.Gen.ReferenceIdeal
import proofs.«163015_j33019708572043_1_alg».proof.Proof.Gen.ReferenceIdeal.Run
import proofs.«163015_j33019708572043_1_alg».proof.Proof.Gen.Pre_finite_inputs
import proofs.«163015_j33019708572043_1_alg».proof.Proof.KernelValue
import proofs.«163015_j33019708572043_1_alg».proof.Proof.RefValue

noncomputable section

namespace Cert.Proof

open Idealize.ShloMosaic Idealize.ShloMosaic.TcCoe Idealize.SL.Sem

/-- The kernel program as printed terminates without a fault and leaves its arguments as they were. -/
theorem frame_kernel : Cert.frame_Kernel := fun m ρ _ => Cert.Kernel.Gen.frame m ρ

/-- So does the kernel program read at the exact values. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the update network applied to each node's features joined with its aggregated messages. -/
theorem algebraic : Cert.algebraic_KernelIdeal_ReferenceIdeal := by
  intro m ρ m' ρ' _ hagree
  refine ⟨fun c => Cert.KernelIdeal.Hand.kval m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [a0, a1, a2, a3, a4, a5, a6, a7, a8, a9, a10, a11, a12, a13]
  rw [Cert.ReferenceIdeal.Hand.ref_msg, Cert.ReferenceIdeal.Hand.ref_upd]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
